-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2x512x2048 : S_.BroadcastsInDim S2x512x2048 (![] : Fin 0 → Fin S2x512x2048.rank)
  reducesTo_S2x512x2048_S_d0_1_2 : S2x512x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048x2048 .f32) (main_arg13 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S512x2048 .f32) (main_arg1 : FVec F S2x512x2048 .f32) (main_arg2 : FVec F S2048x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2x512x2048 .f32 := Host.absf main_arg1
  let main_cst_0 : FVec F S_ .f32 := constant S_ .f32 0x7F800000#32
  let main_v5 : FVec F S2x512x2048 .f32 := broadcastInDim S2x512x2048 ![] bcast_S_S2x512x2048 main_cst_0
  let main_v6 : IVec S2x512x2048 1 := cmpf .olt main_v4 main_v5
  let main_c_1 : IVec S_ 1 := constantI S_ 1 1#1
  let main_v7 : IVec S_ 1 := (fun x v => Host.reduce IntOp.andi x v reducesTo_S2x512x2048_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S1x512x2048 : Shape := ⟨3, ![1, 512, 2048]⟩
abbrev S1x2048 : Shape := ⟨2, ![1, 2048]⟩
abbrev S512x256 : Shape := ⟨2, ![512, 256]⟩
abbrev S2048x256 : Shape := ⟨2, ![2048, 256]⟩
abbrev S1x256 : Shape := ⟨2, ![1, 256]⟩

abbrev nBuf : Space → Nat
  | .hbm => 37
  | .vmem => 32
  | .smem => 0
  | _ => 0

abbrev bufTy : (tb : Table) → Fin (tcTables nBuf tb) → BufTy
  | .hbm, ⟨0, _⟩ => ⟨S512x2048, .f32⟩
  | .hbm, ⟨1, _⟩ => ⟨S2x512x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S1x512x2048, .f32⟩
  | .hbm, ⟨15, _⟩ => ⟨S512x2048, .f32⟩
  | .hbm, ⟨16, _⟩ => ⟨S1x512x2048, .f32⟩
  | .hbm, ⟨17, _⟩ => ⟨S512x2048, .f32⟩
  | .hbm, ⟨18, _⟩ => ⟨S512x2048, .bf16⟩
  | .hbm, ⟨19, _⟩ => ⟨S512x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S512x2048, .f32⟩
  | .hbm, ⟨33, _⟩ => ⟨S512x2048, .f32⟩
  | .hbm, ⟨34, _⟩ => ⟨S1x512x2048, .f32⟩
  | .hbm, ⟨35, _⟩ => ⟨S1x512x2048, .f32⟩
  | .hbm, ⟨36, _⟩ => ⟨S2x512x2048, .f32⟩
  | .local _ .vmem, ⟨0, _⟩ => ⟨S512x2048, .bf16⟩
  | .local _ .vmem, ⟨1, _⟩ => ⟨S512x2048, .bf16⟩
  | .local _ .vmem, ⟨2, _⟩ => ⟨S512x256, .f32⟩
  | .local _ .vmem, ⟨3, _⟩ => ⟨S512x256, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x512x2048_S1x512x2048_0_0_0 : S2x512x2048.Slices ![0, 0, 0] S1x512x2048
  shapeCasts_S1x512x2048_S512x2048 : S1x512x2048.ShapeCasts S512x2048
  slices_S2x512x2048_S1x512x2048_1_0_0 : S2x512x2048.Slices ![1, 0, 0] S1x512x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  bcast_S512x2048_S1x512x2048_1_2 : S512x2048.BroadcastsInDim S1x512x2048 (![1, 2] : Fin 2 → Fin S1x512x2048.rank)
  concatenates_S1x512x2048_S1x512x2048_S2x512x2048_d0 : Shape.Concatenates [S1x512x2048, S1x512x2048] S2x512x2048 0
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .bf16 = 32 ∨ (Rect.block (s := S512x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x2048.size a
  hwx0_2 : ∀ i : grid0.Coords, EltTy.bits .f32 = 32 ∨ (Rect.block (s := S512x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S512x2048.size a
  hwx0_15 : ∀ i : grid0.Coords, EltTy.bits .f32 = 32 ∨ (Rect.block (s := S512x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x2048.size a
  hwx0_16 : ∀ i : grid0.Coords, EltTy.bits .f32 = 32 ∨ (Rect.block (s := S512x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v4) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x2048 : Shape := ⟨2, ![512, 2048]⟩
abbrev S2x512x2048 : Shape := ⟨3, ![2, 512, 2048]⟩
abbrev S2048x2048 : Shape := ⟨2, ![2048, 2048]⟩
abbrev S2048 : Shape := ⟨1, ![2048]⟩
abbrev S1x512x2048 : Shape := ⟨3, ![1, 512, 2048]⟩
abbrev S1x2048 : Shape := ⟨2, ![1, 2048]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x512x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S1x512x2048, .f32⟩
  | .hbm, ⟨15, _⟩ => ⟨S512x2048, .f32⟩
  | .hbm, ⟨16, _⟩ => ⟨S1x512x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S1x2048, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .f32⟩
  | .hbm, ⟨48, _⟩ => ⟨S512x2048, .f32⟩
  | .hbm, ⟨49, _⟩ => ⟨S1x2048, .f32⟩
  | .hbm, ⟨50, _⟩ => ⟨S512x2048, .f32⟩
  | .hbm, ⟨51, _⟩ => ⟨S512x2048, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S512x2048, .f32⟩
  | .hbm, ⟨56, _⟩ => ⟨S512x2048, .f32⟩
  | .hbm, ⟨57, _⟩ => ⟨S_, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S512x2048, .f32⟩
  | .hbm, ⟨62, _⟩ => ⟨S512x2048, .f32⟩
  | .hbm, ⟨63, _⟩ => ⟨S1x2048, .f32⟩
  | .hbm, ⟨64, _⟩ => ⟨S512x2048, .f32⟩
  | .hbm, ⟨65, _⟩ => ⟨S512x2048, .f32⟩
  | .hbm, ⟨66, _⟩ => ⟨S512x2048, .f32⟩
  | .hbm, ⟨67, _⟩ => ⟨S512x2048, .f32⟩
  | .hbm, ⟨68, _⟩ => ⟨S512x2048, .f32⟩
  | .hbm, ⟨69, _⟩ => ⟨S512x2048, .f32⟩
  | .hbm, ⟨70, _⟩ => ⟨S512x2048, .f32⟩
  | .hbm, ⟨71, _⟩ => ⟨S512x2048, .f32⟩
  | .hbm, ⟨72, _⟩ => ⟨S1x512x2048, .f32⟩
  | .hbm, ⟨73, _⟩ => ⟨S1x512x2048, .f32⟩
  | .hbm, ⟨74, _⟩ => ⟨S2x512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x512x2048_S1x512x2048_0_0_0 : S2x512x2048.Slices ![0, 0, 0] S1x512x2048
  shapeCasts_S1x512x2048_S512x2048 : S1x512x2048.ShapeCasts S512x2048
  slices_S2x512x2048_S1x512x2048_1_0_0 : S2x512x2048.Slices ![1, 0, 0] S1x512x2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  bcast_S512x2048_S1x512x2048_1_2 : S512x2048.BroadcastsInDim S1x512x2048 (![1, 2] : Fin 2 → Fin S1x512x2048.rank)
  concatenates_S1x512x2048_S1x512x2048_S2x512x2048_d0 : Shape.Concatenates [S1x512x2048, S1x512x2048] S2x512x2048 0
  dot_S512x2048_S2048x2048_S512x2048_1_0_0_1_n_n_wf : DotDims.WF S512x2048 S2048x2048 S512x2048 [1] [0] [0] [1] [] []

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelBlock.lean ====
/-
  What one grid step of the kernel leaves in its two output tiles, entry by entry.

  A grid step holds the whole input (512 × 2048), the whole first state plane (512 × 2048), a 512 × 256 tile of the second
  state plane, one 2048 × 256 column tile of each of the eight weight matrices and one 1 × 256 tile of each bias. Each
  gate's pre-activation on the tile is  X · W + P · U + b  (two full contractions over 2048, the bias row repeated down
  the 512 rows); the cell tile is σ(f) · Q + σ(i) · tanh(c) and the hidden tile σ(g) · tanh(cell).
-/
import proofs.«114041_j71270687310298_1_alg».proof.Proof.Gen.KernelIdeal.Frame
import proofs.«114041_j71270687310298_1_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

theorem off_zero : (![0, 0] : Fin 2 → Nat) = fun _ => 0 := funext fun a => by fin_cases a <;> rfl

/-- A gate's pre-activation on the tile at row `p` and tile column `q`. -/
def gateBlk (X P : FVec Ideal S512x2048 .bf16) (W U : FVec Ideal S2048x256 .bf16) (b : FVec Ideal S1x256 .f32)
    (p : Fin 512) (q : Fin 256) : EReal :=
  (∑ k : Fin 2048, X (ix2 p k) * W (ix2 k q)) + (∑ k : Fin 2048, P (ix2 p k) * U (ix2 k q)) + b (ix2 0 q)

/-- The cell tile's entry. -/
def cellBlk (X P : FVec Ideal S512x2048 .bf16) (Q : FVec Ideal S512x256 .f32)
    (Wi Ui : FVec Ideal S2048x256 .bf16) (bi : FVec Ideal S1x256 .f32)
    (Wf Uf : FVec Ideal S2048x256 .bf16) (bf : FVec Ideal S1x256 .f32)
    (Wc Uc : FVec Ideal S2048x256 .bf16) (bc : FVec Ideal S1x256 .f32) (p : Fin 512) (q : Fin 256) : EReal :=
  Ideal.logistic (gateBlk X P Wf Uf bf p q) * Q (ix2 p q)
    + Ideal.logistic (gateBlk X P Wi Ui bi p q) * Ideal.tanh (gateBlk X P Wc Uc bc p q)

/-- The hidden tile's entry. -/
def hiddenBlk (X P : FVec Ideal S512x2048 .bf16) (Q : FVec Ideal S512x256 .f32)
    (Wi Ui : FVec Ideal S2048x256 .bf16) (bi : FVec Ideal S1x256 .f32)
    (Wf Uf : FVec Ideal S2048x256 .bf16) (bf : FVec Ideal S1x256 .f32)
    (Wg Ug : FVec Ideal S2048x256 .bf16) (bg : FVec Ideal S1x256 .f32)
    (Wc Uc : FVec Ideal S2048x256 .bf16) (bc : FVec Ideal S1x256 .f32) (p : Fin 512) (q : Fin 256) : EReal :=
  Ideal.logistic (gateBlk X P Wg Ug bg p q) * Ideal.tanh (cellBlk X P Q Wi Ui bi Wf Uf bf Wc Uc bc p q)

/-- The matrix product of the kernel (rows by columns, into the zero accumulator) at an entry. -/
theorem mm_apply (A : FVec Ideal S512x2048 .bf16) (B : FVec Ideal S2048x256 .bf16) (p : Fin 512) (q : Fin 256) :
    matmul (F := Ideal) dot_S512x2048_S2048x256_S512x256_1_0_0_1_n_n none A B (constant S512x256 .f32 0x00000000#32) (ix2 p q)
      = ∑ k : Fin 2048, A (ix2 p k) * B (ix2 k q) :=
  Cert.LibDot.matmul_10_zero_apply (M := 512) (K := 2048) (N := 256) dot_S512x2048_S2048x256_S512x256_1_0_0_1_n_n
    rfl rfl rfl rfl rfl rfl none A B p q

/-- The bias row repeated down the rows reads the row's entry in the same column. -/
theorem bias_apply (b : FVec Ideal S1x256 .f32) (p : Fin 512) (q : Fin 256) :
    broadcastTo S512x256 b broadcasts_S1x256_S512x256 (ix2 p q) = b (ix2 0 q) :=
  broadcastTo_apply b broadcasts_S1x256_S512x256 (ix2 p q) (ix2 0 q) (fun a => by
    match a with
    | ⟨0, _⟩ => show (0 : Nat) = if (1 : Nat) = 1 then 0 else _; rw [if_pos rfl]
    | ⟨1, _⟩ => show q.val = if (256 : Nat) = 1 then 0 else _; rw [if_neg (by decide)]; rfl)

/-- Two products, their sum, the bias: the pre-activation at an entry. -/
theorem pre_apply (X P : FVec Ideal S512x2048 .bf16) (W U : FVec Ideal S2048x256 .bf16) (b : FVec Ideal S1x256 .f32)
    (p : Fin 512) (q : Fin 256) :
    addf (addf (matmul (F := Ideal) dot_S512x2048_S2048x256_S512x256_1_0_0_1_n_n none X W (constant S512x256 .f32 0x00000000#32))
        (matmul (F := Ideal) dot_S512x2048_S2048x256_S512x256_1_0_0_1_n_n none P U (constant S512x256 .f32 0x00000000#32)))
      (broadcastTo S512x256 b broadcasts_S1x256_S512x256) (ix2 p q) = gateBlk X P W U b p q := by
  rw [addf_apply, addf_apply, mm_apply, mm_apply, bias_apply]
  rfl

section
variable (x0 x1 : Vec Ideal S512x2048 .bf16) (x2 : Vec Ideal S512x256 .f32)
  (x3 x4 x5 x6 x7 x8 x9 x10 : Vec Ideal S2048x256 .bf16) (x11 x12 x13 x14 : Vec Ideal S1x256 .f32)

/-- The first output tile after a grid step is the cell tile of the step's input tiles. -/
theorem out15_apply (p : Fin 512) (q : Fin 256) :
    out0_15 (F := Ideal) x0 x1 x2 x3 x4 x5 x6 x7 x8 x9 x10 x11 x12 x13 x14 (ix2 p q)
      = cellBlk x0 x1 x2 x3 x7 x11 x4 x8 x12 x6 x10 x14 p q := by
  unfold out0_15
  rw [View.canon_unit_zero off_zero]
  simp only [View.ld_unit_zero (S := S512x2048) off_zero, View.ld_unit_zero (S := S512x256) off_zero,
    View.ld_unit_zero (S := S2048x256) off_zero, View.ld_unit_zero (S := S1x256) off_zero]
  unfold k0_pay1 k0_pay6 k0_pay7 k0_pay3 k0_pay4 k0_pay5
  simp only [shapeCast_self]
  have hF := pre_apply x0 x1 x4 x8 x12 p q
  have hI := pre_apply x0 x1 x3 x7 x11 p q
  have hC := pre_apply x0 x1 x6 x10 x14 p q
  unfold cellBlk
  rw [← hF, ← hI, ← hC]
  rfl

/-- The second output tile after a grid step is the hidden tile of the step's input tiles. -/
theorem out16_apply (p : Fin 512) (q : Fin 256) :
    out0_16 (F := Ideal) x0 x1 x2 x3 x4 x5 x6 x7 x8 x9 x10 x11 x12 x13 x14 (ix2 p q)
      = hiddenBlk x0 x1 x2 x3 x7 x11 x4 x8 x12 x5 x9 x13 x6 x10 x14 p q := by
  unfold out0_16
  rw [View.canon_unit_zero off_zero]
  simp only [View.ld_unit_zero (S := S512x2048) off_zero, View.ld_unit_zero (S := S512x256) off_zero,
    View.ld_unit_zero (S := S2048x256) off_zero, View.ld_unit_zero (S := S1x256) off_zero]
  unfold k0_pay2 k0_pay1 k0_pay6 k0_pay7 k0_pay8 k0_pay3 k0_pay4 k0_pay5
  simp only [shapeCast_self]
  have hF := pre_apply x0 x1 x4 x8 x12 p q
  have hI := pre_apply x0 x1 x3 x7 x11 p q
  have hC := pre_apply x0 x1 x6 x10 x14 p q
  have hG := pre_apply x0 x1 x5 x9 x13 p q
  unfold hiddenBlk cellBlk
  rw [← hF, ← hI, ← hC, ← hG]
  rfl

end

end Cert.KernelIdeal.Block

end
-- ==== Proof.Spec.lean ====
/-
  One step of an LSTM cell over a batch of 512 rows and 2048 hidden columns, as a function of the argument arrays.

  Every gate has the affine pre-activation  x · W + s₀ · U + b  (s₀ the first plane of the state pair, contracted over
  the 2048 input columns; b added along rows).  With σ the logistic function:
      cell   = σ(pre_f) · s₁ + σ(pre_i) · tanh(pre_c)         (s₁ the second plane of the state pair)
      hidden = σ(pre_g) · tanh(cell)
  The results are the cell array and the pair (hidden, cell) stacked along a new leading axis.
-/
import Idealize.ShloMosaic.Lib.ValueIdx
import Idealize.ShloMosaic.Lib.IdealHost
import Idealize.ShloMosaic.PureOps.Ideal.Laws

noncomputable section

open scoped BigOperators

namespace Cert.LstmCell

open Idealize.ShloMosaic Idealize.ShloMosaic.ValueIdx

/-- The fourteen argument arrays, at the ideal values. -/
structure Args where
  x : FVec Ideal ⟨2, ![512, 2048]⟩ .f32
  st : FVec Ideal ⟨3, ![2, 512, 2048]⟩ .f32
  Wi : FVec Ideal ⟨2, ![2048, 2048]⟩ .f32
  Ui : FVec Ideal ⟨2, ![2048, 2048]⟩ .f32
  bi : FVec Ideal ⟨1, ![2048]⟩ .f32
  Wf : FVec Ideal ⟨2, ![2048, 2048]⟩ .f32
  Uf : FVec Ideal ⟨2, ![2048, 2048]⟩ .f32
  bf : FVec Ideal ⟨1, ![2048]⟩ .f32
  Wg : FVec Ideal ⟨2, ![2048, 2048]⟩ .f32
  Ug : FVec Ideal ⟨2, ![2048, 2048]⟩ .f32
  bg : FVec Ideal ⟨1, ![2048]⟩ .f32
  Wc : FVec Ideal ⟨2, ![2048, 2048]⟩ .f32
  Uc : FVec Ideal ⟨2, ![2048, 2048]⟩ .f32
  bc : FVec Ideal ⟨1, ![2048]⟩ .f32

/-- A gate's pre-activation at batch row `r` and hidden column `j`: the input row against the column of `W`, plus the
    previous state's row against the column of `U`, plus the bias entry. -/
def gatePre (x : FVec Ideal ⟨2, ![512, 2048]⟩ .f32) (st : FVec Ideal ⟨3, ![2, 512, 2048]⟩ .f32)
    (W U : FVec Ideal ⟨2, ![2048, 2048]⟩ .f32) (b : FVec Ideal ⟨1, ![2048]⟩ .f32) (r : Fin 512) (j : Fin 2048) : EReal :=
  (∑ k : Fin 2048, x (ix2 r k) * W (ix2 k j)) + (∑ k : Fin 2048, st (ix3 0 r k) * U (ix2 k j)) + b (ix1 j)

/-- The new cell entry: forget gate times the old cell (second plane of the states) plus input gate times candidate. -/
def cellAt (a : Args) (r : Fin 512) (j : Fin 2048) : EReal :=
  Ideal.logistic (gatePre a.x a.st a.Wf a.Uf a.bf r j) * a.st (ix3 1 r j)
    + Ideal.logistic (gatePre a.x a.st a.Wi a.Ui a.bi r j) * Ideal.tanh (gatePre a.x a.st a.Wc a.Uc a.bc r j)

/-- The new hidden entry: output gate times the squashed new cell. -/
def hiddenAt (a : Args) (r : Fin 512) (j : Fin 2048) : EReal :=
  Ideal.logistic (gatePre a.x a.st a.Wg a.Ug a.bg r j) * Ideal.tanh (cellAt a r j)

/-- The cell array. -/
def cellArr (a : Args) : FVec Ideal ⟨2, ![512, 2048]⟩ .f32 := fun i => cellAt a (i 0) (i 1)

/-- The hidden array. -/
def hiddenArr (a : Args) : FVec Ideal ⟨2, ![512, 2048]⟩ .f32 := fun i => hiddenAt a (i 0) (i 1)

theorem cellArr_apply (a : Args) (r : Fin 512) (j : Fin 2048) : cellArr a (ix2 r j) = cellAt a r j := rfl

theorem hiddenArr_apply (a : Args) (r : Fin 512) (j : Fin 2048) : hiddenArr a (ix2 r j) = hiddenAt a r j := rfl

/-- Two arrays of the cell's shape laid one after the other along a new leading axis of extent two (each first given a
    leading unit axis). The two shape facts are those the printed programs state for these literal shapes. -/
def stack (hb : Shape.BroadcastsInDim (⟨2, ![512, 2048]⟩ : Shape) (⟨3, ![1, 512, 2048]⟩ : Shape) ![1, 2])
    (hc : Shape.Concatenates [(⟨3, ![1, 512, 2048]⟩ : Shape), ⟨3, ![1, 512, 2048]⟩] ⟨3, ![2, 512, 2048]⟩ 0)
    (h c : FVec Ideal ⟨2, ![512, 2048]⟩ .f32) : FVec Ideal ⟨3, ![2, 512, 2048]⟩ .f32 :=
  concatenate ⟨3, ![2, 512, 2048]⟩ 0
    [⟨⟨3, ![1, 512, 2048]⟩, broadcastInDim ⟨3, ![1, 512, 2048]⟩ ![1, 2] hb h⟩,
     ⟨⟨3, ![1, 512, 2048]⟩, broadcastInDim ⟨3, ![1, 512, 2048]⟩ ![1, 2] hb c⟩] hc

/-- The logistic function spelled with a quotient: one over one plus the exponential of the negated argument. -/
theorem logistic_eq_div (x : EReal) : Ideal.div 1 (1 + Ideal.exp (-x)) = Ideal.logistic x := rfl

end Cert.LstmCell

end
-- ==== Proof.Tile.lean ====
/-
  A grid step's tiles against the whole arrays. Grid step `t` (of eight) sees columns t·256 … t·256 + 255 of every
  weight matrix, bias and of the old cell, and the whole input and previous state. When its tiles hold exactly those
  entries, its pre-activations, cell entries and hidden entries are the whole-array ones at column t·256 + q.
-/
import proofs.«114041_j71270687310298_1_alg».proof.Proof.KernelBlock
import proofs.«114041_j71270687310298_1_alg».proof.Proof.Spec

noncomputable section

open scoped BigOperators

namespace Cert.KernelIdeal.Block

open Cert.KernelIdeal Idealize.ShloMosaic Idealize.ShloMosaic.ValueIdx Cert.LstmCell

/-- The array column that tile column `q` of grid step `t` is. -/
def col (t : Nat) (ht : t < 8) (q : Fin 256) : Fin 2048 := ⟨t * 256 + q.val, by have := q.isLt; omega⟩

section
variable {x : FVec Ideal ⟨2, ![512, 2048]⟩ .f32} {st : FVec Ideal ⟨3, ![2, 512, 2048]⟩ .f32}
  {X P : FVec Ideal S512x2048 .bf16} {t : Nat} {ht : t < 8}

/-- One gate: a column tile of `W`, of `U` and of `b` gives the whole-array pre-activation at that column. -/
theorem gateBlk_eq (hX : ∀ p k, X (ix2 p k) = x (ix2 p k)) (hP : ∀ p k, P (ix2 p k) = st (ix3 0 p k))
    {W' U' : FVec Ideal ⟨2, ![2048, 2048]⟩ .f32} {b' : FVec Ideal ⟨1, ![2048]⟩ .f32}
    {W U : FVec Ideal S2048x256 .bf16} {b : FVec Ideal S1x256 .f32}
    (hW : ∀ k q, W (ix2 k q) = W' (ix2 k (col t ht q))) (hU : ∀ k q, U (ix2 k q) = U' (ix2 k (col t ht q)))
    (hb : ∀ q, b (ix2 0 q) = b' (ix1 (col t ht q))) (p : Fin 512) (q : Fin 256) :
    gateBlk X P W U b p q = gatePre x st W' U' b' p (col t ht q) := by
  unfold gateBlk gatePre
  simp only [hX, hP, hW, hU, hb]

end

/-- Grid step `t`'s fifteen input tiles hold the entries of the argument arrays `a` they are cut from. -/
structure TileOf (a : Args) (t : Nat) (ht : t < 8) (X P : FVec Ideal S512x2048 .bf16) (Q : FVec Ideal S512x256 .f32)
    (Wi Ui : FVec Ideal S2048x256 .bf16) (bi : FVec Ideal S1x256 .f32)
    (Wf Uf : FVec Ideal S2048x256 .bf16) (bf : FVec Ideal S1x256 .f32)
    (Wg Ug : FVec Ideal S2048x256 .bf16) (bg : FVec Ideal S1x256 .f32)
    (Wc Uc : FVec Ideal S2048x256 .bf16) (bc : FVec Ideal S1x256 .f32) : Prop where
  hX : ∀ p k, X (ix2 p k) = a.x (ix2 p k)
  hP : ∀ p k, P (ix2 p k) = a.st (ix3 0 p k)
  hQ : ∀ p q, Q (ix2 p q) = a.st (ix3 1 p (col t ht q))
  hWi : ∀ k q, Wi (ix2 k q) = a.Wi (ix2 k (col t ht q))
  hUi : ∀ k q, Ui (ix2 k q) = a.Ui (ix2 k (col t ht q))
  hbi : ∀ q, bi (ix2 0 q) = a.bi (ix1 (col t ht q))
  hWf : ∀ k q, Wf (ix2 k q) = a.Wf (ix2 k (col t ht q))
  hUf : ∀ k q, Uf (ix2 k q) = a.Uf (ix2 k (col t ht q))
  hbf : ∀ q, bf (ix2 0 q) = a.bf (ix1 (col t ht q))
  hWg : ∀ k q, Wg (ix2 k q) = a.Wg (ix2 k (col t ht q))
  hUg : ∀ k q, Ug (ix2 k q) = a.Ug (ix2 k (col t ht q))
  hbg : ∀ q, bg (ix2 0 q) = a.bg (ix1 (col t ht q))
  hWc : ∀ k q, Wc (ix2 k q) = a.Wc (ix2 k (col t ht q))
  hUc : ∀ k q, Uc (ix2 k q) = a.Uc (ix2 k (col t ht q))
  hbc : ∀ q, bc (ix2 0 q) = a.bc (ix1 (col t ht q))

section
variable {a : Args} {t : Nat} {ht : t < 8} {X P : FVec Ideal S512x2048 .bf16} {Q : FVec Ideal S512x256 .f32}
  {Wi Ui : FVec Ideal S2048x256 .bf16} {bi : FVec Ideal S1x256 .f32}
  {Wf Uf : FVec Ideal S2048x256 .bf16} {bf : FVec Ideal S1x256 .f32}
  {Wg Ug : FVec Ideal S2048x256 .bf16} {bg : FVec Ideal S1x256 .f32}
  {Wc Uc : FVec Ideal S2048x256 .bf16} {bc : FVec Ideal S1x256 .f32}

/-- The cell tile's entry is the cell array's entry at the tile's column. -/
theorem cellBlk_eq (h : TileOf a t ht X P Q Wi Ui bi Wf Uf bf Wg Ug bg Wc Uc bc) (p : Fin 512) (q : Fin 256) :
    cellBlk X P Q Wi Ui bi Wf Uf bf Wc Uc bc p q = cellAt a p (col t ht q) := by
  unfold cellBlk cellAt
  rw [gateBlk_eq h.hX h.hP h.hWf h.hUf h.hbf, gateBlk_eq h.hX h.hP h.hWi h.hUi h.hbi,
    gateBlk_eq h.hX h.hP h.hWc h.hUc h.hbc, h.hQ]

/-- The hidden tile's entry is the hidden array's entry at the tile's column. -/
theorem hiddenBlk_eq (h : TileOf a t ht X P Q Wi Ui bi Wf Uf bf Wg Ug bg Wc Uc bc) (p : Fin 512) (q : Fin 256) :
    hiddenBlk X P Q Wi Ui bi Wf Uf bf Wg Ug bg Wc Uc bc p q = hiddenAt a p (col t ht q) := by
  unfold hiddenBlk hiddenAt
  rw [gateBlk_eq h.hX h.hP h.hWg h.hUg h.hbg, cellBlk_eq h]

end

end Cert.KernelIdeal.Block

end
-- ==== Proof.KernelArrays.lean ====
/-
  The arrays the kernel's windows are cut from, and each window's tile at a grid step.

  Before the launch the host narrows the input, the first state plane and the eight weight matrices to sixteen-bit
  floats (the identity on ideal values), flattens the two state planes, and gives each bias a leading unit axis. The
  launch has eight grid steps; step `t` sees the whole input and first state plane, and column tile `t` (256 columns)
  of the old cell, of every weight matrix and of every bias row.
-/
import proofs.«114041_j71270687310298_1_alg».proof.Proof.Gen.KernelIdeal.Frame
import proofs.«114041_j71270687310298_1_alg».proof.Proof.Tile
import Idealize.ShloMosaic.Lib.Pipeline.Value
import Idealize.ShloMosaic.Lib.ValueIdx
import Idealize.ShloMosaic.Lib.StableHlo.Run

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.KernelIdeal.Block

variable {F : FTy → Type} [FloatOps F]
variable (m : (ℓ : Loc nD τ sig) → Buf (Elt F) ℓ)

/-! ## What the host leaves in each window's array -/

theorem V_v4 (c : Dev nD) : (V m c main_v4 : S512x2048.Idx → Elt F .bf16)
    = truncf .bf16 (m ((c : Thread nD τ).loc main_arg0)) bitsLt_bf16_f32 := by
  show StableHlo.after hostOps0 (fun b => m (c, b)) (Proc.devRef .tc main_v4) = _
  after_results <;> rfl

theorem V_v5 (c : Dev nD) : (V m c main_v5 : S512x2048.Idx → Elt F .bf16)
    = truncf .bf16 (shapeCast S512x2048 (extractStridedSlice S1x512x2048 ![0, 0, 0] (m ((c : Thread nD τ).loc main_arg1))
        slices_S2x512x2048_S1x512x2048_0_0_0) shapeCasts_S1x512x2048_S512x2048) bitsLt_bf16_f32 := by
  show StableHlo.after hostOps0 (fun b => m (c, b)) (Proc.devRef .tc main_v5) = _
  after_results <;> rfl

theorem V_v3 (c : Dev nD) : (V m c main_v3 : S512x2048.Idx → Elt F .f32)
    = shapeCast S512x2048 (extractStridedSlice S1x512x2048 ![1, 0, 0] (m ((c : Thread nD τ).loc main_arg1))
        slices_S2x512x2048_S1x512x2048_1_0_0) shapeCasts_S1x512x2048_S512x2048 := by
  show StableHlo.after hostOps0 (fun b => m (c, b)) (Proc.devRef .tc main_v3) = _
  after_results <;> rfl

theorem V_v6 (c : Dev nD) : (V m c main_v6 : S2048x2048.Idx → Elt F .bf16)
    = truncf .bf16 (m ((c : Thread nD τ).loc main_arg2)) bitsLt_bf16_f32 := by
  show StableHlo.after hostOps0 (fun b => m (c, b)) (Proc.devRef .tc main_v6) = _
  after_results <;> rfl

theorem V_v7 (c : Dev nD) : (V m c main_v7 : S2048x2048.Idx → Elt F .bf16)
    = truncf .bf16 (m ((c : Thread nD τ).loc main_arg5)) bitsLt_bf16_f32 := by
  show StableHlo.after hostOps0 (fun b => m (c, b)) (Proc.devRef .tc main_v7) = _
  after_results <;> rfl

theorem V_v8 (c : Dev nD) : (V m c main_v8 : S2048x2048.Idx → Elt F .bf16)
    = truncf .bf16 (m ((c : Thread nD τ).loc main_arg8)) bitsLt_bf16_f32 := by
  show StableHlo.after hostOps0 (fun b => m (c, b)) (Proc.devRef .tc main_v8) = _
  after_results <;> rfl

theorem V_v9 (c : Dev nD) : (V m c main_v9 : S2048x2048.Idx → Elt F .bf16)
    = truncf .bf16 (m ((c : Thread nD τ).loc main_arg11)) bitsLt_bf16_f32 := by
  show StableHlo.after hostOps0 (fun b => m (c, b)) (Proc.devRef .tc main_v9) = _
  after_results <;> rfl

theorem V_v10 (c : Dev nD) : (V m c main_v10 : S2048x2048.Idx → Elt F .bf16)
    = truncf .bf16 (m ((c : Thread nD τ).loc main_arg3)) bitsLt_bf16_f32 := by
  show StableHlo.after hostOps0 (fun b => m (c, b)) (Proc.devRef .tc main_v10) = _
  after_results <;> rfl

theorem V_v11 (c : Dev nD) : (V m c main_v11 : S2048x2048.Idx → Elt F .bf16)
    = truncf .bf16 (m ((c : Thread nD τ).loc main_arg6)) bitsLt_bf16_f32 := by
  show StableHlo.after hostOps0 (fun b => m (c, b)) (Proc.devRef .tc main_v11) = _
  after_results <;> rfl

theorem V_v12 (c : Dev nD) : (V m c main_v12 : S2048x2048.Idx → Elt F .bf16)
    = truncf .bf16 (m ((c : Thread nD τ).loc main_arg9)) bitsLt_bf16_f32 := by
  show StableHlo.after hostOps0 (fun b => m (c, b)) (Proc.devRef .tc main_v12) = _
  after_results <;> rfl

theorem V_v13 (c : Dev nD) : (V m c main_v13 : S2048x2048.Idx → Elt F .bf16)
    = truncf .bf16 (m ((c : Thread nD τ).loc main_arg12)) bitsLt_bf16_f32 := by
  show StableHlo.after hostOps0 (fun b => m (c, b)) (Proc.devRef .tc main_v13) = _
  after_results <;> rfl

theorem V_v14 (c : Dev nD) : (V m c main_v14 : S1x2048.Idx → Elt F .f32)
    = shapeCast S1x2048 (m ((c : Thread nD τ).loc main_arg4)) shapeCasts_S2048_S1x2048 := by
  show StableHlo.after hostOps0 (fun b => m (c, b)) (Proc.devRef .tc main_v14) = _
  after_results <;> rfl

theorem V_v15 (c : Dev nD) : (V m c main_v15 : S1x2048.Idx → Elt F .f32)
    = shapeCast S1x2048 (m ((c : Thread nD τ).loc main_arg7)) shapeCasts_S2048_S1x2048 := by
  show StableHlo.after hostOps0 (fun b => m (c, b)) (Proc.devRef .tc main_v15) = _
  after_results <;> rfl

theorem V_v16 (c : Dev nD) : (V m c main_v16 : S1x2048.Idx → Elt F .f32)
    = shapeCast S1x2048 (m ((c : Thread nD τ).loc main_arg10)) shapeCasts_S2048_S1x2048 := by
  show StableHlo.after hostOps0 (fun b => m (c, b)) (Proc.devRef .tc main_v16) = _
  after_results <;> rfl

theorem V_v17 (c : Dev nD) : (V m c main_v17 : S1x2048.Idx → Elt F .f32)
    = shapeCast S1x2048 (m ((c : Thread nD τ).loc main_arg13)) shapeCasts_S2048_S1x2048 := by
  show StableHlo.after hostOps0 (fun b => m (c, b)) (Proc.devRef .tc main_v17) = _
  after_results <;> rfl

/-! ## Which block each window takes at a grid step (decided over the eight steps) -/

theorem tlt (t : Fin cfg0.N) : t.val < 8 := lt_of_lt_of_eq t.isLt N_0

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)
theorem idx13 : ∀ t : Fin cfg0.N, win0_13.index t (0 : Fin 2) = 0 ∧ win0_13.index t (1 : Fin 2) = t.val :=
  (by decide +kernel : ∀ t : Fin grid0.N, _)
theorem idx14 : ∀ t : Fin cfg0.N, win0_14.index t (0 : Fin 2) = 0 ∧ win0_14.index t (1 : Fin 2) = t.val :=
  (by decide +kernel : ∀ t : Fin grid0.N, _)
theorem idx15 : ∀ t : Fin cfg0.N, win0_15.index t (0 : Fin 2) = 0 ∧ win0_15.index t (1 : Fin 2) = t.val :=
  (by decide +kernel : ∀ t : Fin grid0.N, _)
theorem idx16 : ∀ t : Fin cfg0.N, win0_16.index t (0 : Fin 2) = 0 ∧ win0_16.index t (1 : Fin 2) = t.val :=
  (by decide +kernel : ∀ t : Fin grid0.N, _)

/-! ## Each input window's tile, read off its array -/

/-- The input: the whole array at every step. -/
theorem blk0 (c : Dev nD) (t : Fin cfg0.N) (p : Fin 512) (k : Fin 2048) :
    iblk m c 0 t (ix2 p k) = V m c main_v4 (ix2 p k) := by
  obtain ⟨e0, e1⟩ := idx0 t
  show V m c main_v4 (((cfg0.win 0).blk t).view.emb (ix2 p k)) = _
  refine congrArg _ (funext fun a => Fin.ext ?_)
  match a with
  | ⟨0, _⟩ => show win0_0.index t (0 : Fin 2) * 512 + 1 * p.val = p.val; omega
  | ⟨1, _⟩ => show win0_0.index t (1 : Fin 2) * 2048 + 1 * k.val = k.val; omega

/-- The previous state's first plane: the whole array at every step. -/
theorem blk1 (c : Dev nD) (t : Fin cfg0.N) (p : Fin 512) (k : Fin 2048) :
    iblk m c 1 t (ix2 p k) = V m c main_v5 (ix2 p k) := by
  obtain ⟨e0, e1⟩ := idx1 t
  show V m c main_v5 (((cfg0.win 1).blk t).view.emb (ix2 p k)) = _
  refine congrArg _ (funext fun a => Fin.ext ?_)
  match a with
  | ⟨0, _⟩ => show win0_1.index t (0 : Fin 2) * 512 + 1 * p.val = p.val; omega
  | ⟨1, _⟩ => show win0_1.index t (1 : Fin 2) * 2048 + 1 * k.val = k.val; omega

/-- The old cell: column tile `t`. -/
theorem blk2 (c : Dev nD) (t : Fin cfg0.N) (p : Fin 512) (q : Fin 256) :
    iblk m c 2 t (ix2 p q) = V m c main_v3 (ix2 p (col t.val (tlt t) q)) := by
  obtain ⟨e0, e1⟩ := idx2 t
  show V m c main_v3 (((cfg0.win 2).blk t).view.emb (ix2 p q)) = _
  refine congrArg _ (funext fun a => Fin.ext ?_)
  match a with
  | ⟨0, _⟩ => show win0_2.index t (0 : Fin 2) * 512 + 1 * p.val = p.val; omega
  | ⟨1, _⟩ => show win0_2.index t (1 : Fin 2) * 256 + 1 * q.val = t.val * 256 + q.val; omega

/-- A weight matrix: column tile `t` (windows 3 to 10). -/
theorem blk3 (c : Dev nD) (t : Fin cfg0.N) (k : Fin 2048) (q : Fin 256) :
    iblk m c 3 t (ix2 k q) = V m c main_v6 (ix2 k (col t.val (tlt t) q)) := by
  obtain ⟨e0, e1⟩ := idx3 t
  show V m c main_v6 (((cfg0.win 3).blk t).view.emb (ix2 k q)) = _
  refine congrArg _ (funext fun a => Fin.ext ?_)
  match a with
  | ⟨0, _⟩ => show win0_3.index t (0 : Fin 2) * 2048 + 1 * k.val = k.val; omega
  | ⟨1, _⟩ => show win0_3.index t (1 : Fin 2) * 256 + 1 * q.val = t.val * 256 + q.val; omega

theorem blk4 (c : Dev nD) (t : Fin cfg0.N) (k : Fin 2048) (q : Fin 256) :
    iblk m c 4 t (ix2 k q) = V m c main_v7 (ix2 k (col t.val (tlt t) q)) := by
  obtain ⟨e0, e1⟩ := idx4 t
  show V m c main_v7 (((cfg0.win 4).blk t).view.emb (ix2 k q)) = _
  refine congrArg _ (funext fun a => Fin.ext ?_)
  match a with
  | ⟨0, _⟩ => show win0_4.index t (0 : Fin 2) * 2048 + 1 * k.val = k.val; omega
  | ⟨1, _⟩ => show win0_4.index t (1 : Fin 2) * 256 + 1 * q.val = t.val * 256 + q.val; omega

theorem blk5 (c : Dev nD) (t : Fin cfg0.N) (k : Fin 2048) (q : Fin 256) :
    iblk m c 5 t (ix2 k q) = V m c main_v8 (ix2 k (col t.val (tlt t) q)) := by
  obtain ⟨e0, e1⟩ := idx5 t
  show V m c main_v8 (((cfg0.win 5).blk t).view.emb (ix2 k q)) = _
  refine congrArg _ (funext fun a => Fin.ext ?_)
  match a with
  | ⟨0, _⟩ => show win0_5.index t (0 : Fin 2) * 2048 + 1 * k.val = k.val; omega
  | ⟨1, _⟩ => show win0_5.index t (1 : Fin 2) * 256 + 1 * q.val = t.val * 256 + q.val; omega

theorem blk6 (c : Dev nD) (t : Fin cfg0.N) (k : Fin 2048) (q : Fin 256) :
    iblk m c 6 t (ix2 k q) = V m c main_v9 (ix2 k (col t.val (tlt t) q)) := by
  obtain ⟨e0, e1⟩ := idx6 t
  show V m c main_v9 (((cfg0.win 6).blk t).view.emb (ix2 k q)) = _
  refine congrArg _ (funext fun a => Fin.ext ?_)
  match a with
  | ⟨0, _⟩ => show win0_6.index t (0 : Fin 2) * 2048 + 1 * k.val = k.val; omega
  | ⟨1, _⟩ => show win0_6.index t (1 : Fin 2) * 256 + 1 * q.val = t.val * 256 + q.val; omega

theorem blk7 (c : Dev nD) (t : Fin cfg0.N) (k : Fin 2048) (q : Fin 256) :
    iblk m c 7 t (ix2 k q) = V m c main_v10 (ix2 k (col t.val (tlt t) q)) := by
  obtain ⟨e0, e1⟩ := idx7 t
  show V m c main_v10 (((cfg0.win 7).blk t).view.emb (ix2 k q)) = _
  refine congrArg _ (funext fun a => Fin.ext ?_)
  match a with
  | ⟨0, _⟩ => show win0_7.index t (0 : Fin 2) * 2048 + 1 * k.val = k.val; omega
  | ⟨1, _⟩ => show win0_7.index t (1 : Fin 2) * 256 + 1 * q.val = t.val * 256 + q.val; omega

theorem blk8 (c : Dev nD) (t : Fin cfg0.N) (k : Fin 2048) (q : Fin 256) :
    iblk m c 8 t (ix2 k q) = V m c main_v11 (ix2 k (col t.val (tlt t) q)) := by
  obtain ⟨e0, e1⟩ := idx8 t
  show V m c main_v11 (((cfg0.win 8).blk t).view.emb (ix2 k q)) = _
  refine congrArg _ (funext fun a => Fin.ext ?_)
  match a with
  | ⟨0, _⟩ => show win0_8.index t (0 : Fin 2) * 2048 + 1 * k.val = k.val; omega
  | ⟨1, _⟩ => show win0_8.index t (1 : Fin 2) * 256 + 1 * q.val = t.val * 256 + q.val; omega

theorem blk9 (c : Dev nD) (t : Fin cfg0.N) (k : Fin 2048) (q : Fin 256) :
    iblk m c 9 t (ix2 k q) = V m c main_v12 (ix2 k (col t.val (tlt t) q)) := by
  obtain ⟨e0, e1⟩ := idx9 t
  show V m c main_v12 (((cfg0.win 9).blk t).view.emb (ix2 k q)) = _
  refine congrArg _ (funext fun a => Fin.ext ?_)
  match a with
  | ⟨0, _⟩ => show win0_9.index t (0 : Fin 2) * 2048 + 1 * k.val = k.val; omega
  | ⟨1, _⟩ => show win0_9.index t (1 : Fin 2) * 256 + 1 * q.val = t.val * 256 + q.val; omega

theorem blk10 (c : Dev nD) (t : Fin cfg0.N) (k : Fin 2048) (q : Fin 256) :
    iblk m c 10 t (ix2 k q) = V m c main_v13 (ix2 k (col t.val (tlt t) q)) := by
  obtain ⟨e0, e1⟩ := idx10 t
  show V m c main_v13 (((cfg0.win 10).blk t).view.emb (ix2 k q)) = _
  refine congrArg _ (funext fun a => Fin.ext ?_)
  match a with
  | ⟨0, _⟩ => show win0_10.index t (0 : Fin 2) * 2048 + 1 * k.val = k.val; omega
  | ⟨1, _⟩ => show win0_10.index t (1 : Fin 2) * 256 + 1 * q.val = t.val * 256 + q.val; omega

/-- A bias row: column tile `t` (windows 11 to 14). -/
theorem blk11 (c : Dev nD) (t : Fin cfg0.N) (q : Fin 256) :
    iblk m c 11 t (ix2 0 q) = V m c main_v14 (ix2 0 (col t.val (tlt t) q)) := by
  obtain ⟨e0, e1⟩ := idx11 t
  show V m c main_v14 (((cfg0.win 11).blk t).view.emb (ix2 0 q)) = _
  refine congrArg _ (funext fun a => Fin.ext ?_)
  match a with
  | ⟨0, _⟩ => show win0_11.index t (0 : Fin 2) * 1 + 1 * 0 = 0; omega
  | ⟨1, _⟩ => show win0_11.index t (1 : Fin 2) * 256 + 1 * q.val = t.val * 256 + q.val; omega

theorem blk12 (c : Dev nD) (t : Fin cfg0.N) (q : Fin 256) :
    iblk m c 12 t (ix2 0 q) = V m c main_v15 (ix2 0 (col t.val (tlt t) q)) := by
  obtain ⟨e0, e1⟩ := idx12 t
  show V m c main_v15 (((cfg0.win 12).blk t).view.emb (ix2 0 q)) = _
  refine congrArg _ (funext fun a => Fin.ext ?_)
  match a with
  | ⟨0, _⟩ => show win0_12.index t (0 : Fin 2) * 1 + 1 * 0 = 0; omega
  | ⟨1, _⟩ => show win0_12.index t (1 : Fin 2) * 256 + 1 * q.val = t.val * 256 + q.val; omega

theorem blk13 (c : Dev nD) (t : Fin cfg0.N) (q : Fin 256) :
    iblk m c 13 t (ix2 0 q) = V m c main_v16 (ix2 0 (col t.val (tlt t) q)) := by
  obtain ⟨e0, e1⟩ := idx13 t
  show V m c main_v16 (((cfg0.win 13).blk t).view.emb (ix2 0 q)) = _
  refine congrArg _ (funext fun a => Fin.ext ?_)
  match a with
  | ⟨0, _⟩ => show win0_13.index t (0 : Fin 2) * 1 + 1 * 0 = 0; omega
  | ⟨1, _⟩ => show win0_13.index t (1 : Fin 2) * 256 + 1 * q.val = t.val * 256 + q.val; omega

theorem blk14 (c : Dev nD) (t : Fin cfg0.N) (q : Fin 256) :
    iblk m c 14 t (ix2 0 q) = V m c main_v17 (ix2 0 (col t.val (tlt t) q)) := by
  obtain ⟨e0, e1⟩ := idx14 t
  show V m c main_v17 (((cfg0.win 14).blk t).view.emb (ix2 0 q)) = _
  refine congrArg _ (funext fun a => Fin.ext ?_)
  match a with
  | ⟨0, _⟩ => show win0_14.index t (0 : Fin 2) * 1 + 1 * 0 = 0; omega
  | ⟨1, _⟩ => show win0_14.index t (1 : Fin 2) * 256 + 1 * q.val = t.val * 256 + q.val; omega

end Cert.KernelIdeal.Arrays

end
-- ==== Proof.Layout.lean ====
/-
  Three re-layouts read at an entry: a plane of the state pair flattened to rows by columns (plane 0, plane 1), and a bias
  vector given a leading unit axis.
-/
import Idealize.ShloMosaic.Lib.Pipeline.Value
import Idealize.ShloMosaic.Lib.ValueIdx

noncomputable section

namespace Cert.Layout

open Idealize.ShloMosaic Idealize.ShloMosaic.ValueIdx

/-- Entry (p, k) of the first plane of a 2 × 512 × 2048 array, cut out and flattened to 512 × 2048. -/
theorem plane0_apply {α : Type} (st : (⟨3, ![2, 512, 2048]⟩ : Shape).Idx → α)
    (hs : (⟨3, ![2, 512, 2048]⟩ : Shape).Slices ![0, 0, 0] ⟨3, ![1, 512, 2048]⟩)
    (hc : (⟨3, ![1, 512, 2048]⟩ : Shape).ShapeCasts ⟨2, ![512, 2048]⟩) (p : Fin 512) (k : Fin 2048) :
    shapeCast ⟨2, ![512, 2048]⟩ (extractStridedSlice ⟨3, ![1, 512, 2048]⟩ ![0, 0, 0] st hs) hc (ix2 p k) = st (ix3 0 p k) := by
  rw [shapeCast_apply _ hc (ix2 p k) (ix3 0 p k) (by
    rw [Shape.rowMajor_val_three, Shape.rowMajor_val_two]
    show (0 * 512 + p.val) * 2048 + k.val = p.val * 2048 + k.val
    omega)]
  exact extractStridedSlice_apply ![0, 0, 0] st hs (ix3 0 p k) (ix3 0 p k) (fun a => by
    match a with
    | ⟨0, _⟩ => rfl
    | ⟨1, _⟩ => show p.val = 0 + p.val; omega
    | ⟨2, _⟩ => show k.val = 0 + k.val; omega)

/-- Entry (p, j) of the second plane, cut out and flattened. -/
theorem plane1_apply {α : Type} (st : (⟨3, ![2, 512, 2048]⟩ : Shape).Idx → α)
    (hs : (⟨3, ![2, 512, 2048]⟩ : Shape).Slices ![1, 0, 0] ⟨3, ![1, 512, 2048]⟩)
    (hc : (⟨3, ![1, 512, 2048]⟩ : Shape).ShapeCasts ⟨2, ![512, 2048]⟩) (p : Fin 512) (j : Fin 2048) :
    shapeCast ⟨2, ![512, 2048]⟩ (extractStridedSlice ⟨3, ![1, 512, 2048]⟩ ![1, 0, 0] st hs) hc (ix2 p j) = st (ix3 1 p j) := by
  rw [shapeCast_apply _ hc (ix2 p j) (ix3 0 p j) (by
    rw [Shape.rowMajor_val_three, Shape.rowMajor_val_two]
    show (0 * 512 + p.val) * 2048 + j.val = p.val * 2048 + j.val
    omega)]
  exact extractStridedSlice_apply ![1, 0, 0] st hs (ix3 0 p j) (ix3 1 p j) (fun a => by
    match a with
    | ⟨0, _⟩ => rfl
    | ⟨1, _⟩ => show p.val = 0 + p.val; omega
    | ⟨2, _⟩ => show j.val = 0 + j.val; omega)

/-- Entry (0, j) of a length-2048 vector given a leading unit axis. -/
theorem row_apply {α : Type} (b : (⟨1, ![2048]⟩ : Shape).Idx → α)
    (hc : (⟨1, ![2048]⟩ : Shape).ShapeCasts ⟨2, ![1, 2048]⟩) (j : Fin 2048) :
    shapeCast ⟨2, ![1, 2048]⟩ b hc (ix2 0 j) = b (ix1 j) :=
  shapeCast_apply b hc (ix2 0 j) (ix1 j) (by
    rw [Shape.rowMajor_val_one, Shape.rowMajor_val_two]
    show j.val = 0 * 2048 + j.val
    omega)

end Cert.Layout

end
-- ==== Proof.KernelValue.lean ====
/-
  The kernel's two result arrays after the run.

  Grid step `t` writes, into column tile `t` of the two 512 × 2048 output arrays, the cell tile and the hidden tile of its
  input tiles; those are column tile `t` of the cell array and of the hidden array of the arguments. The eight column
  tiles cover the outputs, so after the launch the first output is the cell array and the second the hidden array. The
  host then stacks (hidden, cell) along a new leading axis.
-/
import proofs.«114041_j71270687310298_1_alg».proof.Proof.KernelArrays
import proofs.«114041_j71270687310298_1_alg».proof.Proof.Layout

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo Cert.KernelIdeal.Block Cert.KernelIdeal.Arrays Cert.LstmCell
open Idealize.ShloMosaic.Pipeline (Dat)

variable (m : (ℓ : Loc nD τ sig) → Buf (Elt Ideal) ℓ) (ρ : Dev nD → PrngReg)

/-- The argument arrays as launched. -/
def args (c : Dev nD) : Args where
  x := m ((c : Thread nD τ).loc main_arg0)
  st := m ((c : Thread nD τ).loc main_arg1)
  Wi := m ((c : Thread nD τ).loc main_arg2)
  Ui := m ((c : Thread nD τ).loc main_arg3)
  bi := m ((c : Thread nD τ).loc main_arg4)
  Wf := m ((c : Thread nD τ).loc main_arg5)
  Uf := m ((c : Thread nD τ).loc main_arg6)
  bf := m ((c : Thread nD τ).loc main_arg7)
  Wg := m ((c : Thread nD τ).loc main_arg8)
  Ug := m ((c : Thread nD τ).loc main_arg9)
  bg := m ((c : Thread nD τ).loc main_arg10)
  Wc := m ((c : Thread nD τ).loc main_arg11)
  Uc := m ((c : Thread nD τ).loc main_arg12)
  bc := m ((c : Thread nD τ).loc main_arg13)

/-- At every grid step the fifteen input tiles hold the arguments' entries: narrowing to sixteen bits is the identity
    on ideal values, the flattened planes and the bias rows are read by Layout. -/
theorem tile (c : Dev nD) (t : Fin cfg0.N) :
    TileOf (args m c) t.val (tlt t) (iblk m c 0 t) (iblk m c 1 t) (iblk m c 2 t)
      (iblk m c 3 t) (iblk m c 7 t) (iblk m c 11 t) (iblk m c 4 t) (iblk m c 8 t) (iblk m c 12 t)
      (iblk m c 5 t) (iblk m c 9 t) (iblk m c 13 t) (iblk m c 6 t) (iblk m c 10 t) (iblk m c 14 t) where
  hX p k := (blk0 m c t p k).trans (congrFun (V_v4 m c) (ix2 p k))
  hP p k := ((blk1 m c t p k).trans (congrFun (V_v5 m c) (ix2 p k))).trans
    (Cert.Layout.plane0_apply (m ((c : Thread nD τ).loc main_arg1)) slices_S2x512x2048_S1x512x2048_0_0_0
      shapeCasts_S1x512x2048_S512x2048 p k)
  hQ p q := ((blk2 m c t p q).trans (congrFun (V_v3 m c) (ix2 p (col t.val (tlt t) q)))).trans
    (Cert.Layout.plane1_apply (m ((c : Thread nD τ).loc main_arg1)) slices_S2x512x2048_S1x512x2048_1_0_0
      shapeCasts_S1x512x2048_S512x2048 p (col t.val (tlt t) q))
  hWi k q := (blk3 m c t k q).trans (congrFun (V_v6 m c) (ix2 k (col t.val (tlt t) q)))
  hWf k q := (blk4 m c t k q).trans (congrFun (V_v7 m c) (ix2 k (col t.val (tlt t) q)))
  hWg k q := (blk5 m c t k q).trans (congrFun (V_v8 m c) (ix2 k (col t.val (tlt t) q)))
  hWc k q := (blk6 m c t k q).trans (congrFun (V_v9 m c) (ix2 k (col t.val (tlt t) q)))
  hUi k q := (blk7 m c t k q).trans (congrFun (V_v10 m c) (ix2 k (col t.val (tlt t) q)))
  hUf k q := (blk8 m c t k q).trans (congrFun (V_v11 m c) (ix2 k (col t.val (tlt t) q)))
  hUg k q := (blk9 m c t k q).trans (congrFun (V_v12 m c) (ix2 k (col t.val (tlt t) q)))
  hUc k q := (blk10 m c t k q).trans (congrFun (V_v13 m c) (ix2 k (col t.val (tlt t) q)))
  hbi q := ((blk11 m c t q).trans (congrFun (V_v14 m c) (ix2 0 (col t.val (tlt t) q)))).trans
    (Cert.Layout.row_apply (m ((c : Thread nD τ).loc main_arg4)) shapeCasts_S2048_S1x2048 (col t.val (tlt t) q))
  hbf q := ((blk12 m c t q).trans (congrFun (V_v15 m c) (ix2 0 (col t.val (tlt t) q)))).trans
    (Cert.Layout.row_apply (m ((c : Thread nD τ).loc main_arg7)) shapeCasts_S2048_S1x2048 (col t.val (tlt t) q))
  hbg q := ((blk13 m c t q).trans (congrFun (V_v16 m c) (ix2 0 (col t.val (tlt t) q)))).trans
    (Cert.Layout.row_apply (m ((c : Thread nD τ).loc main_arg10)) shapeCasts_S2048_S1x2048 (col t.val (tlt t) q))
  hbc q := ((blk14 m c t q).trans (congrFun (V_v17 m c) (ix2 0 (col t.val (tlt t) q)))).trans
    (Cert.Layout.row_apply (m ((c : Thread nD τ).loc main_arg13)) shapeCasts_S2048_S1x2048 (col t.val (tlt t) q))

/-! ## What a grid step writes back -/

/-- An output tile's entry (p, q) at step `t` lands at (p, t·256 + q) of the output array. -/
theorem emb15 (t : Fin cfg0.N) (p : Fin 512) (q : Fin 256) :
    ((cfg0.win 15).blk t).view.emb (ix2 p q) = ix2 p (col t.val (tlt t) q) := by
  obtain ⟨e0, e1⟩ := idx15 t
  refine funext fun a => Fin.ext ?_
  match a with
  | ⟨0, _⟩ => show win0_15.index t (0 : Fin 2) * 512 + 1 * p.val = p.val; omega
  | ⟨1, _⟩ => show win0_15.index t (1 : Fin 2) * 256 + 1 * q.val = t.val * 256 + q.val; omega

theorem emb16 (t : Fin cfg0.N) (p : Fin 512) (q : Fin 256) :
    ((cfg0.win 16).blk t).view.emb (ix2 p q) = ix2 p (col t.val (tlt t) q) := by
  obtain ⟨e0, e1⟩ := idx16 t
  refine funext fun a => Fin.ext ?_
  match a with
  | ⟨0, _⟩ => show win0_16.index t (0 : Fin 2) * 512 + 1 * p.val = p.val; omega
  | ⟨1, _⟩ => show win0_16.index t (1 : Fin 2) * 256 + 1 * q.val = t.val * 256 + q.val; omega

/-- Step `t` writes column tile `t` of the cell array into the first output. -/
theorem flushed15_eq (c : Dev nD) (t : Fin cfg0.N) :
    (dats m 0 c).flushed 15 t = ((cfg0.win 15).blk t).view.read (Elt Ideal) (cellArr (args m c)) := by
  show (cfg0.win 15).cut (grid0.coords t) ((dats m 0 c).after 15 t) = _
  rw [after0_15]
  funext (y : S512x256.Idx)
  obtain ⟨p, q, rfl⟩ : ∃ (p : Fin 512) (q : Fin 256), y = ix2 p q := ⟨y 0, y 1, eq_ix2 y⟩
  show out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (ix2 p q) = cellArr (args m c) (((cfg0.win 15).blk t).view.emb (ix2 p q))
  rw [emb15 t p q, cellArr_apply]
  exact (out15_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans (cellBlk_eq (tile m c t) p q)

/-- Step `t` writes column tile `t` of the hidden array into the second output. -/
theorem flushed16_eq (c : Dev nD) (t : Fin cfg0.N) :
    (dats m 0 c).flushed 16 t = ((cfg0.win 16).blk t).view.read (Elt Ideal) (hiddenArr (args m c)) := by
  show (cfg0.win 16).cut (grid0.coords t) ((dats m 0 c).after 16 t) = _
  rw [after0_16]
  funext (y : S512x256.Idx)
  obtain ⟨p, q, rfl⟩ : ∃ (p : Fin 512) (q : Fin 256), y = ix2 p q := ⟨y 0, y 1, eq_ix2 y⟩
  show out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (ix2 p q) = hiddenArr (args m c) (((cfg0.win 16).blk t).view.emb (ix2 p q))
  rw [emb16 t p q, hiddenArr_apply]
  exact (out16_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans (hiddenBlk_eq (tile m c t) p q)

/-! ## The eight column tiles cover each output -/

theorem mem_blk15 (t : Fin cfg0.N) (i : S512x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v18_0).slice (win0_15.rect t)).set ↔ _
  rw [View.set_slice_whole, Rect.mem_set_unit]
  exact Iff.rfl

theorem mem_blk16 (t : Fin cfg0.N) (i : S512x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v18_1).slice (win0_16.rect t)).set ↔ _
  rw [View.set_slice_whole, Rect.mem_set_unit]
  exact Iff.rfl

/-- Column j lies in the tile of step j / 256. -/
theorem cover15 (i : S512x2048.Idx) :
    ∃ t : Fin cfg0.N, (cfg0.win 15).flush t = true ∧ i ∈ ((cfg0.win 15).blk t).view.set := by
  have h0 : (i 0).val < 512 := (i 0).isLt
  have h1 : (i 1).val < 2048 := (i 1).isLt
  have hN : (i 1).val / 256 < cfg0.N := by rw [show cfg0.N = 8 from N_0]; omega
  obtain ⟨e0, e1⟩ := idx15 ⟨(i 1).val / 256, hN⟩
  refine ⟨⟨(i 1).val / 256, hN⟩, flush0_15 _, ?_⟩
  rw [mem_blk15]
  intro a
  match a with
  | ⟨0, _⟩ =>
    show win0_15.index ⟨(i 1).val / 256, hN⟩ (0 : Fin 2) * 512 ≤ (i 0).val
      ∧ (i 0).val < win0_15.index ⟨(i 1).val / 256, hN⟩ (0 : Fin 2) * 512 + 512
    omega
  | ⟨1, _⟩ =>
    show win0_15.index ⟨(i 1).val / 256, hN⟩ (1 : Fin 2) * 256 ≤ (i 1).val
      ∧ (i 1).val < win0_15.index ⟨(i 1).val / 256, hN⟩ (1 : Fin 2) * 256 + 256
    simp only [] at e1
    omega

theorem cover16 (i : S512x2048.Idx) :
    ∃ t : Fin cfg0.N, (cfg0.win 16).flush t = true ∧ i ∈ ((cfg0.win 16).blk t).view.set := by
  have h0 : (i 0).val < 512 := (i 0).isLt
  have h1 : (i 1).val < 2048 := (i 1).isLt
  have hN : (i 1).val / 256 < cfg0.N := by rw [show cfg0.N = 8 from N_0]; omega
  obtain ⟨e0, e1⟩ := idx16 ⟨(i 1).val / 256, hN⟩
  refine ⟨⟨(i 1).val / 256, hN⟩, flush0_16 _, ?_⟩
  rw [mem_blk16]
  intro a
  match a with
  | ⟨0, _⟩ =>
    show win0_16.index ⟨(i 1).val / 256, hN⟩ (0 : Fin 2) * 512 ≤ (i 0).val
      ∧ (i 0).val < win0_16.index ⟨(i 1).val / 256, hN⟩ (0 : Fin 2) * 512 + 512
    omega
  | ⟨1, _⟩ =>
    show win0_16.index ⟨(i 1).val / 256, hN⟩ (1 : Fin 2) * 256 ≤ (i 1).val
      ∧ (i 1).val < win0_16.index ⟨(i 1).val / 256, hN⟩ (1 : Fin 2) * 256 + 256
    simp only [] at e1
    omega

/-- After the launch the first output is the cell array. -/
theorem final15 (c : Dev nD) : (dats m 0 c).arrAt 15 cfg0.N = cellArr (args m c) :=
  (dats m 0 c).arrAt_eq_of_cover 15 (cellArr (args m c)) (fun t _ => flushed15_eq m c t) cover15

/-- After the launch the second output is the hidden array. -/
theorem final16 (c : Dev nD) : (dats m 0 c).arrAt 16 cfg0.N = hiddenArr (args m c) :=
  (dats m 0 c).arrAt_eq_of_cover 16 (hiddenArr (args m c)) (fun t _ => flushed16_eq m c t) cover16

/-! ## The host's stacking after the launch -/

theorem tail_eq (c : Dev nD) :
    Pipeline.afterTail₀ cfgs (dats m) 0 (V0 m) [hostOps1] c main_v21
      = stack bcast_S512x2048_S1x512x2048_1_2 concatenates_S1x512x2048_S1x512x2048_S2x512x2048_d0
          (hiddenArr (args m c)) (cellArr (args m c)) := by
  unfold Pipeline.afterTail₀
  show StableHlo.after hostOps1 _ (Proc.devRef .tc main_v21) = _
  after_results
  have e1 : Pipeline.withArrays (cfgs 0).spec c (V0 m c) (fun w => (dats m 0 c).arrAt w (cfgs 0).N)
      (Proc.devRef .tc main_v18_1) = hiddenArr (args m c) :=
    (Pipeline.withArrays_arr spec0 winFacts0.arr_inj c _ _ 16).trans (final16 m c)
  have e0 : Pipeline.withArrays (cfgs 0).spec c (V0 m c) (fun w => (dats m 0 c).arrAt w (cfgs 0).N)
      (Proc.devRef .tc main_v18_0) = cellArr (args m c) :=
    (Pipeline.withArrays_arr spec0 winFacts0.arr_inj c _ _ 15).trans (final15 m c)
  rw [e1, e0]
  rfl

/-! ## The run -/

/-- Every weakly fair execution of the kernel's program ends with the cell array in its first result, the stacked pair
    (hidden, cell) in its second, and the arguments as launched. -/
theorem run : θ_run defs (onTc (τ := τ) (main (F := Ideal))) ⟨m, fun _ => 0, ρ⟩ (fun r => ∀ c : Dev nD,
      r.2.mem ((c.tc : Thread nD τ).loc main_v18_0) = cellArr (args m c)
      ∧ r.2.mem ((c.tc : Thread nD τ).loc main_v21)
          = stack bcast_S512x2048_S1x512x2048_1_2 concatenates_S1x512x2048_S1x512x2048_S2x512x2048_d0
              (hiddenArr (args m c)) (cellArr (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 15).trans (final15 m c),
      ((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.RunValue

end
-- ==== Proof.RefValue.lean ====
/-
  The reference computes the cell step with plain array operations: two matrix products and a bias broadcast per gate, the
  logistic function spelled as 1 / (1 + exp(-·)), products and sums entry by entry, and the stacking of (hidden, cell).
  Read entry by entry, its two results are the cell array and the stacked pair of Spec.
-/
import proofs.«114041_j71270687310298_1_alg».proof.Proof.Gen.ReferenceIdeal.Read
import proofs.«114041_j71270687310298_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmCell

/-- The first plane of the state pair, flattened to rows by columns. -/
theorem prev_apply (st : FVec Ideal S2x512x2048 .f32) (r : Fin 512) (k : Fin 2048) :
    val_main_v1 (F := Ideal) st (ix2 r k) = st (ix3 0 r k) := by
  rw [val_main_v1_apply, val_main_v0_apply]
  refine congrArg st (funext fun a => Fin.ext ?_)
  have hr := r.isLt; have hk := k.isLt
  match a with
  | ⟨0, _⟩ => rfl
  | ⟨1, _⟩ => show (r.val * 2048 + k.val) / 2048 % 512 = r.val; omega
  | ⟨2, _⟩ => show (r.val * 2048 + k.val) % 2048 = k.val; omega

/-- The second plane of the state pair, flattened to rows by columns. -/
theorem old_apply (st : FVec Ideal S2x512x2048 .f32) (r : Fin 512) (j : Fin 2048) :
    val_main_v3 (F := Ideal) st (ix2 r j) = st (ix3 1 r j) := by
  rw [val_main_v3_apply, val_main_v2_apply]
  refine congrArg st (funext fun a => Fin.ext ?_)
  have hr := r.isLt; have hj := j.isLt
  match a with
  | ⟨0, _⟩ => rfl
  | ⟨1, _⟩ => show (r.val * 2048 + j.val) / 2048 % 512 = r.val; omega
  | ⟨2, _⟩ => show (r.val * 2048 + j.val) % 2048 = j.val; omega

/-- A gate's pre-activation as the reference spells it (two matrix products, a sum, the bias broadcast along rows) is the
    affine form of Spec at every entry. -/
theorem gate_apply (x : FVec Ideal S512x2048 .f32) (st : FVec Ideal S2x512x2048 .f32) (W U : FVec Ideal S2048x2048 .f32)
    (b : FVec Ideal S2048 .f32) (r : Fin 512) (j : Fin 2048) :
    val_main_v9 (F := Ideal) x st W U b (ix2 r j) = gatePre x st W U b r j := by
  rw [val_main_v9_apply, val_main_v6_apply, val_main_v4_apply, val_main_v5_apply, val_main_v8_apply, val_main_v7_apply]
  unfold gatePre
  simp only [Ideal.addf_def]
  have e1 : ∀ k : Fin 2048, lidx_main_v4 (ix2 r j) k = ix2 r k := fun k =>
    funext fun a => Fin.ext (by match a with | ⟨0, _⟩ => rfl | ⟨1, _⟩ => rfl)
  have e2 : ∀ k : Fin 2048, ridx_main_v4 (ix2 r j) k = ix2 k j := fun k =>
    funext fun a => Fin.ext (by match a with | ⟨0, _⟩ => rfl | ⟨1, _⟩ => rfl)
  have e3 : ∀ k : Fin 2048, lidx_main_v5 (ix2 r j) k = ix2 r k := fun k =>
    funext fun a => Fin.ext (by match a with | ⟨0, _⟩ => rfl | ⟨1, _⟩ => rfl)
  have e4 : ∀ k : Fin 2048, ridx_main_v5 (ix2 r j) k = ix2 k j := fun k =>
    funext fun a => Fin.ext (by match a with | ⟨0, _⟩ => rfl | ⟨1, _⟩ => rfl)
  have e5 : idx_main_v7 (idx_main_v8 (ix2 r j)) = ix1 j :=
    funext fun a => Fin.ext (by match a with | ⟨0, _⟩ => rfl)
  simp only [e1, e2, e3, e4, e5, prev_apply]

/-- One over one plus the exponential of the negation, entry by entry, is the logistic function. -/
theorem sigmoid_apply (y : FVec Ideal S512x2048 .f32) (i : S512x2048.Idx) :
    Host.divf (val_main_v14 (F := Ideal)) (addf (val_main_v12 (F := Ideal)) (Host.exp (Host.negf y))) i
      = Ideal.logistic (y i) := by
  show Ideal.div (val_main_v14 (F := Ideal) i) (val_main_v12 (F := Ideal) i + Ideal.exp (-(y i))) = _
  rw [val_main_v14_apply, val_main_cst_0_apply, val_main_v12_apply, val_main_cst_apply]
  show Ideal.div (Ideal.ofBits .f32 0x3F800000#32) (Ideal.ofBits .f32 0x3F800000#32 + Ideal.exp (-(y i))) = _
  rw [Ideal.ofBits_one_f32]
  rfl

variable (a : Args)

/-- The reference's first result is the cell array. -/
theorem cell_apply (r : Fin 512) (j : Fin 2048) :
    val_main_v49 (F := Ideal) a.x a.st a.Wi a.Ui a.bi a.Wf a.Uf a.bf a.Wc a.Uc a.bc (ix2 r j) = cellAt a r j := by
  have hf := sigmoid_apply (val_main_v9 (F := Ideal) a.x a.st a.Wf a.Uf a.bf) (ix2 r j)
  have hi := sigmoid_apply (val_main_v9 (F := Ideal) a.x a.st a.Wi a.Ui a.bi) (ix2 r j)
  rw [gate_apply] at hf hi
  unfold cellAt
  rw [← hf, ← hi, ← gate_apply a.x a.st a.Wc a.Uc a.bc r j, ← old_apply a.st r j]
  rfl

theorem cell_eq : val_main_v49 (F := Ideal) a.x a.st a.Wi a.Ui a.bi a.Wf a.Uf a.bf a.Wc a.Uc a.bc = cellArr a := by
  funext i
  rw [eq_ix2 i]
  exact cell_apply a (i 0) (i 1)

/-- The reference's hidden array, entry by entry. -/
theorem hidden_apply (r : Fin 512) (j : Fin 2048) :
    val_main_v51 (F := Ideal) a.x a.st a.Wi a.Ui a.bi a.Wf a.Uf a.bf a.Wg a.Ug a.bg a.Wc a.Uc a.bc (ix2 r j) = hiddenAt a r j := by
  have hg := sigmoid_apply (val_main_v9 (F := Ideal) a.x a.st a.Wg a.Ug a.bg) (ix2 r j)
  rw [gate_apply] at hg
  unfold hiddenAt
  rw [← hg, ← cell_apply]
  rfl

theorem hidden_eq : val_main_v51 (F := Ideal) a.x a.st a.Wi a.Ui a.bi a.Wf a.Uf a.bf a.Wg a.Ug a.bg a.Wc a.Uc a.bc = hiddenArr a := by
  funext i
  rw [eq_ix2 i]
  exact hidden_apply a (i 0) (i 1)

/-- The reference's second result is the stacked pair (hidden, cell). -/
theorem stacked_eq :
    val_main_v54 (F := Ideal) a.x a.st a.Wi a.Ui a.bi a.Wf a.Uf a.bf a.Wg a.Ug a.bg a.Wc a.Uc a.bc
      = stack bcast_S512x2048_S1x512x2048_1_2 concatenates_S1x512x2048_S1x512x2048_S2x512x2048_d0 (hiddenArr a) (cellArr a) := by
  rw [← hidden_eq, ← cell_eq]
  rfl

end Cert.ReferenceIdeal.RefValue

end
-- ==== Proof.lean ====
/-
  One step of an LSTM cell (batch 512, input and hidden width 2048): the kernel against the plain array program.

  Both programs compute, for each of the four gates, the pre-activation  x · W + s₀ · U + b , then
      cell   = σ(pre_f) · s₁ + σ(pre_i) · tanh(pre_c),      hidden = σ(pre_g) · tanh(cell),
  and return the cell array and the pair (hidden, cell) stacked along a new leading axis.

  The kernel narrows its matrix operands to sixteen-bit floats before multiplying — the identity on ideal values — and
  computes each output in eight column tiles of 256, every tile by full contractions over the 2048 inner columns, so no
  sum is regrouped; its logistic function is one operation where the plain program writes 1 / (1 + exp(−·)), and at
  the ideal values these are one function. Hence both results agree entry by entry for all argument values, and the
  finiteness of the inputs is never used.

  The three frames are the generated ones (the plain program's is its generated run with the results dropped); the
  ideal pass rewrote nothing, so the preservation claim is trivial.
-/
import proofs.«114041_j71270687310298_1_alg».proof.Defs
import proofs.«114041_j71270687310298_1_alg».proof.Proof.Gen.Kernel
import proofs.«114041_j71270687310298_1_alg».proof.Proof.Gen.Kernel.Skeleton
import proofs.«114041_j71270687310298_1_alg».proof.Proof.Gen.Kernel.Launch
import proofs.«114041_j71270687310298_1_alg».proof.Proof.Gen.Kernel.Points
import proofs.«114041_j71270687310298_1_alg».proof.Proof.Gen.Kernel.Frame
import proofs.«114041_j71270687310298_1_alg».proof.Proof.Gen.KernelIdeal
import proofs.«114041_j71270687310298_1_alg».proof.Proof.Gen.KernelIdeal.Skeleton
import proofs.«114041_j71270687310298_1_alg».proof.Proof.Gen.KernelIdeal.Launch
import proofs.«114041_j71270687310298_1_alg».proof.Proof.Gen.KernelIdeal.Points
import proofs.«114041_j71270687310298_1_alg».proof.Proof.Gen.KernelIdeal.Frame
import proofs.«114041_j71270687310298_1_alg».proof.Proof.Gen.ReferenceIdeal
import proofs.«114041_j71270687310298_1_alg».proof.Proof.Gen.ReferenceIdeal.Run
import proofs.«114041_j71270687310298_1_alg».proof.Proof.Gen.ReferenceIdeal.Read
import proofs.«114041_j71270687310298_1_alg».proof.Proof.Gen.Pre_finite_inputs
import proofs.«114041_j71270687310298_1_alg».proof.Proof.KernelValue
import proofs.«114041_j71270687310298_1_alg».proof.Proof.RefValue
import Idealize.ShloMosaic.Adequacy
import Idealize.ShloMosaic.Init

noncomputable section

namespace Cert.Proof

open Idealize.ShloMosaic Idealize.SL.Sem Cert.LstmCell

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories that agree on the arguments, both programs end with the cell array and the stacked pair
    (hidden, cell) of those arguments in their results. -/
theorem algebraic : Cert.algebraic_KernelIdeal_ReferenceIdeal := by
  intro m ρ m' ρ' _ hagree
  refine ⟨fun c => cellArr (Cert.KernelIdeal.RunValue.args m c),
    fun c => stack Cert.KernelIdeal.Gen.bcast_S512x2048_S1x512x2048_1_2
      Cert.KernelIdeal.Gen.concatenates_S1x512x2048_S1x512x2048_S2x512x2048_d0
      (hiddenArr (Cert.KernelIdeal.RunValue.args m c)) (cellArr (Cert.KernelIdeal.RunValue.args m c)),
    Cert.KernelIdeal.RunValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13⟩ := hagree c
    rw [h0, h1, h2, h3, h4, h5, h6, h7, h11, h12, h13]
    exact Cert.ReferenceIdeal.RefValue.cell_eq (Cert.KernelIdeal.RunValue.args m c)
  · obtain ⟨h0, h1, h2, h3, h4, h5, h6, h7, h8, h9, h10, h11, h12, h13⟩ := hagree c
    rw [Cert.ReferenceIdeal.Read.val_main_v54_eq, h0, h1, h2, h3, h4, h5, h6, h7, h8, h9, h10, h11, h12, h13]
    exact Cert.ReferenceIdeal.RefValue.stacked_eq (Cert.KernelIdeal.RunValue.args m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
